-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S4x2048 : Shape := ⟨2, ![4, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8x4096x2048 .f32) (main_arg1 : FVec F S4x2048 .f32) (main_arg2 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S8x4096x2048 : Shape := ⟨3, ![8, 4096, 2048]⟩
abbrev S4x2048 : Shape := ⟨2, ![4, 2048]⟩
abbrev S2048 : Shape := ⟨1, ![2048]⟩
abbrev S1x2048 : Shape := ⟨2, ![1, 2048]⟩
abbrev S1x512x2048 : Shape := ⟨3, ![1, 512, 2048]⟩
abbrev S3x2048 : Shape := ⟨2, ![3, 2048]⟩
abbrev S512x2048 : Shape := ⟨2, ![512, 2048]⟩
abbrev S515x2048 : Shape := ⟨2, ![515, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S2048, .f32⟩
  | .hbm, ⟨3, _⟩ => ⟨S1x2048, .f32⟩
  | .hbm, ⟨4, _⟩ => ⟨S8x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x2048, .f32⟩
  | .local _ .vmem, ⟨3, _⟩ => ⟨S1x2048, .f32⟩
  | .local _ .vmem, ⟨4, _⟩ => ⟨S1x512x2048, .f32⟩
  | .local _ .vmem, ⟨5, _⟩ => ⟨S1x512x2048, .f32⟩
  | .local _ .vmem, ⟨6, _⟩ => ⟨S3x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048_S1x2048 : S2048.ShapeCasts S1x2048
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  concatenates_S3x2048_S512x2048_S515x2048_d0 : Shape.Concatenates [S3x2048, S512x2048] S515x2048 0
  inb_S4x2048_S4x2048_0_0 : ∀ a, (![0, 0] : Fin 2 → Nat) a + S4x2048.size a ≤ S4x2048.size a
  h_S4x2048 : 0 < S4x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S515x2048_o0_0_S512x2048 : S515x2048.Slices ![0, 0] S512x2048
  slices_S4x2048_o0_0_S1x2048 : S4x2048.Slices ![0, 0] S1x2048
  shapeCasts_S1x2048_S2048 : S1x2048.ShapeCasts S2048
  slices_S515x2048_o1_0_S512x2048 : S515x2048.Slices ![1, 0] S512x2048
  slices_S4x2048_o1_0_S1x2048 : S4x2048.Slices ![1, 0] S1x2048
  slices_S515x2048_o2_0_S512x2048 : S515x2048.Slices ![2, 0] S512x2048
  slices_S4x2048_o2_0_S1x2048 : S4x2048.Slices ![2, 0] S1x2048
  slices_S515x2048_o3_0_S512x2048 : S515x2048.Slices ![3, 0] S512x2048
  slices_S4x2048_o3_0_S1x2048 : S4x2048.Slices ![3, 0] S1x2048
  shapeCasts_S512x2048_S1x512x2048 : S512x2048.ShapeCasts S1x512x2048
  slices_S512x2048_o509_0_S3x2048 : S512x2048.Slices ![509, 0] S3x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x4096x2048.size a
  hwx0_0 : ∀ i : grid0.Coords, EltTy.bits .f32 = 32 ∨ (Rect.block (s := S8x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x4096x2048.size a
  hwx0_3 : ∀ i : grid0.Coords, EltTy.bits .f32 = 32 ∨ (Rect.block (s := S8x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S4x2048 : Shape := ⟨2, ![4, 2048]⟩
abbrev S2048 : Shape := ⟨1, ![2048]⟩
abbrev S_ : Shape := ⟨0, ![]⟩
abbrev S8x4099x2048 : Shape := ⟨3, ![8, 4099, 2048]⟩
abbrev S1x2048 : Shape := ⟨2, ![1, 2048]⟩
abbrev S1x1x2048 : Shape := ⟨3, ![1, 1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S4x2048, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S8x4099x2048, .f32⟩
  | .hbm, ⟨6, _⟩ => ⟨S8x4096x2048, .f32⟩
  | .hbm, ⟨7, _⟩ => ⟨S1x2048, .f32⟩
  | .hbm, ⟨8, _⟩ => ⟨S2048, .f32⟩
  | .hbm, ⟨9, _⟩ => ⟨S1x1x2048, .f32⟩
  | .hbm, ⟨10, _⟩ => ⟨S8x4096x2048, .f32⟩
  | .hbm, ⟨11, _⟩ => ⟨S8x4096x2048, .f32⟩
  | .hbm, ⟨12, _⟩ => ⟨S1x1x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S8x4096x2048, .f32⟩
  | .hbm, ⟨34, _⟩ => ⟨S8x4096x2048, .f32⟩
  | .hbm, ⟨35, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]

class Facts₀ : Prop where
  pads_S8x4096x2048_S8x4099x2048_000_300_000 : S8x4096x2048.Pads (![0, 3, 0] : Fin 3 → Nat) ![0, 0, 0] ![0, 0, 0] S8x4099x2048
  h_S_ : 0 < S_.numel
  slices_S8x4099x2048_S8x4096x2048_0_0_0 : S8x4099x2048.Slices ![0, 0, 0] S8x4096x2048
  slices_S4x2048_S1x2048_0_0 : S4x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  slices_S8x4099x2048_S8x4096x2048_0_1_0 : S8x4099x2048.Slices ![0, 1, 0] S8x4096x2048
  slices_S4x2048_S1x2048_1_0 : S4x2048.Slices ![1, 0] S1x2048
  slices_S8x4099x2048_S8x4096x2048_0_2_0 : S8x4099x2048.Slices ![0, 2, 0] S8x4096x2048
  slices_S4x2048_S1x2048_2_0 : S4x2048.Slices ![2, 0] S1x2048
  slices_S8x4099x2048_S8x4096x2048_0_3_0 : S8x4099x2048.Slices ![0, 3, 0] S8x4096x2048
  slices_S4x2048_S1x2048_3_0 : S4x2048.Slices ![3, 0] S1x2048

variable [Facts₀]

class Facts : Prop extends Facts₀ where

variable [Facts]
-- ==== Proof.ConvSpec.lean ====
/-
  The mathematics both programs compute: a depthwise causal convolution with four taps along the time axis.

  For a batch row `b`, a time `t` and a channel `d`,

      y[b, t, d] = (((bias[d] + p[b, t, d] · w[0, d]) + p[b, t+1, d] · w[1, d]) + p[b, t+2, d] · w[2, d]) + p[b, t+3, d] · w[3, d]

  where `p[b, s, d]` is the time series of `x[b, ·, d]` with three zeros put in front: `p[b, s, d] = 0` for `s < 3`
  and `x[b, s − 3, d]` from there on. The sum is written in the order in which both programs add its terms, so no
  law of the extended reals is needed to compare them: the two sides are the same expression of the same entries.
-/
import Idealize.ShloMosaic.PureOps.Ideal
import Idealize.ShloMosaic.Lib.ValueIdx

noncomputable section

namespace Cert.CausalConv

open Idealize.ShloMosaic Idealize.ShloMosaic.ValueIdx

/-- The input: 8 batch rows, 4096 times, 2048 channels. -/
abbrev SX : Shape := ⟨3, ![8, 4096, 2048]⟩
/-- The four taps' weights, one row per tap. -/
abbrev SW : Shape := ⟨2, ![4, 2048]⟩
/-- The bias, one entry per channel. -/
abbrev SB : Shape := ⟨1, ![2048]⟩

/-- Entry `s` of the series `x[b, ·, d]` with three zeros in front of it: zero before `s = 3`, then `x[b, s − 3, d]`
    (and zero again past the end, where no tap ever reads). -/
def padded (x : SX.Idx → EReal) (b : Fin 8) (s : ℕ) (d : Fin 2048) : EReal :=
  if h : 3 ≤ s ∧ s < 4099 then x (ix3 b ⟨s - 3, by omega⟩ d) else 0

/-- The padded series at or past its third entry is the series itself. -/
theorem padded_of_le (x : SX.Idx → EReal) (b : Fin 8) (s : ℕ) (d : Fin 2048) (t : Fin 4096) (h : s = t.val + 3) :
    padded x b s d = x (ix3 b t d) := by
  subst h
  unfold padded
  rw [dif_pos ⟨by omega, by have := t.isLt; omega⟩]
  congr 2

/-- The padded series before its third entry is zero. -/
theorem padded_of_lt (x : SX.Idx → EReal) (b : Fin 8) (s : ℕ) (d : Fin 2048) (h : s < 3) : padded x b s d = 0 := by
  unfold padded
  rw [dif_neg (by omega)]

/-- The convolution's value at `(b, t, d)`: the bias, then the four taps' products added first to last. -/
def conv (x : SX.Idx → EReal) (w : SW.Idx → EReal) (bias : SB.Idx → EReal) : SX.Idx → EReal := fun j =>
  (((bias (ix1 (j 2)) + padded x (j 0) ((j 1).val + 0) (j 2) * w (ix2 0 (j 2)))
      + padded x (j 0) ((j 1).val + 1) (j 2) * w (ix2 1 (j 2)))
      + padded x (j 0) ((j 1).val + 2) (j 2) * w (ix2 2 (j 2)))
      + padded x (j 0) ((j 1).val + 3) (j 2) * w (ix2 3 (j 2))

end Cert.CausalConv

end
-- ==== Proof.TileValue.lean ====
/-
  One tile of the convolution, as the kernel's body computes it: the body's arithmetic read at one entry.

  At a grid point the body has the tile's 512 rows `xs` of `x[b]`, the three rows `cr` carried over from the tile
  before (or zeros, at a sequence's first tile), the four weight rows `kv` and the bias row `bv`. It puts the
  carried rows in front of the tile's (515 rows in all) and, for row `r` of the tile and channel `d`, adds to the
  bias the products of rows `r, r+1, r+2, r+3` of the 515 with the four weights, in that order. What it carries
  on is rows 509, 510, 511 of the tile.
-/
import proofs.«134902_j50818053046278_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-- Row `j` of the 515 rows the body works on, at channel `d`: the three carried rows first, then the tile's 512
    (and zero past them, where no window reads). -/
def rows (cr : FVec Ideal S3x2048 .f32) (xs : FVec Ideal S1x512x2048 .f32) (j : ℕ) (d : Fin 2048) : EReal :=
  if h : j < 3 then cr (ix2 ⟨j, h⟩ d)
  else if h2 : j < 515 then xs (ix3 (0 : Fin 1) (⟨j - 3, by omega⟩ : Fin 512) d) else 0

/-- A tile seen without its leading unit axis reads the tile at the same row and channel. -/
theorem dropUnit_apply (v : FVec Ideal S1x512x2048 .f32) (h : S1x512x2048.ShapeCasts S512x2048) (r : Fin 512) (d : Fin 2048) :
    shapeCast S512x2048 v h (ix2 r d) = v (ix3 (0 : Fin 1) r d) :=
  shapeCast_apply v h (ix2 r d) (ix3 (0 : Fin 1) r d) (by
    rw [Shape.rowMajor_val_three, Shape.rowMajor_val_two]
    show ((0 : ℕ) * 512 + r.val) * 2048 + d.val = r.val * 2048 + d.val
    omega)

/-- A tile's worth of results given its leading unit axis back reads them at the same row and channel. -/
theorem addUnit_apply (v : FVec Ideal S512x2048 .f32) (h : S512x2048.ShapeCasts S1x512x2048) (r : Fin 512) (d : Fin 2048) :
    shapeCast S1x512x2048 v h (ix3 (0 : Fin 1) r d) = v (ix2 r d) :=
  shapeCast_apply v h (ix3 (0 : Fin 1) r d) (ix2 r d) (by
    rw [Shape.rowMajor_val_three, Shape.rowMajor_val_two]
    show r.val * 2048 + d.val = ((0 : ℕ) * 512 + r.val) * 2048 + d.val
    omega)

/-- The bias row spread over the tile's rows reads the bias of the channel. -/
theorem bias_apply (bv : FVec Ideal S1x2048 .f32) (h : S1x2048.ShapeCasts S1x2048) (hb : S1x2048.Broadcasts S512x2048)
    (r : Fin 512) (d : Fin 2048) :
    broadcastTo S512x2048 (shapeCast S1x2048 (shapeCast S1x2048 bv h) h) hb (ix2 r d) = bv (ix2 (0 : Fin 1) d) := by
  rw [shapeCast_self, shapeCast_self]
  exact broadcastTo_apply bv hb (ix2 r d) (ix2 (0 : Fin 1) d) (fun a => match a with
    | ⟨0, _⟩ => by show (0 : ℕ) = if (1 : ℕ) = 1 then 0 else _; rw [if_pos rfl]
    | ⟨1, _⟩ => by show d.val = if (2048 : ℕ) = 1 then 0 else d.val; rw [if_neg (by decide)])

/-- Weight row `i`, cut out of the four and spread over the tile's rows, reads tap `i`'s weight of the channel. -/
theorem weight_apply (kv : FVec Ideal S4x2048 .f32) (off : Fin 2 → ℕ) (i : Fin 4) (hoff : off = ![i.val, 0])
    (hs : S4x2048.Slices off S1x2048) (h1 : S1x2048.ShapeCasts S2048) (h2 : S2048.ShapeCasts S1x2048)
    (hb : S1x2048.Broadcasts S512x2048) (r : Fin 512) (d : Fin 2048) :
    broadcastTo S512x2048 (shapeCast S1x2048 (shapeCast S2048 (extractStridedSlice S1x2048 off kv hs) h1) h2) hb (ix2 r d)
      = kv (ix2 i d) := by
  subst hoff
  rw [shapeCast_shapeCast]
  refine (broadcastTo_apply _ hb (ix2 r d) (ix2 (0 : Fin 1) d) (fun a => match a with
    | ⟨0, _⟩ => by show (0 : ℕ) = if (1 : ℕ) = 1 then 0 else _; rw [if_pos rfl]
    | ⟨1, _⟩ => by show d.val = if (2048 : ℕ) = 1 then 0 else d.val; rw [if_neg (by decide)])).trans ?_
  exact extractStridedSlice_apply _ kv hs (ix2 (0 : Fin 1) d) (ix2 i d) (fun a => match a with
    | ⟨0, _⟩ => by show i.val = i.val + 0; omega
    | ⟨1, _⟩ => by show d.val = 0 + d.val; omega)

/-- The window of 512 rows starting at row `i` of the 515 (carried rows, then the tile's) reads row `r + i`. -/
theorem window_apply (cr : FVec Ideal S3x2048 .f32) (xs : FVec Ideal S1x512x2048 .f32) (off : Fin 2 → ℕ) (i : ℕ) (hi : i ≤ 3)
    (hoff : off = ![i, 0]) (hc : Shape.Concatenates [S3x2048, S512x2048] S515x2048 0)
    (hd : S1x512x2048.ShapeCasts S512x2048) (hs : S515x2048.Slices off S512x2048) (r : Fin 512) (d : Fin 2048) :
    extractStridedSlice S512x2048 off
        (concatenate S515x2048 0 [⟨S3x2048, cr⟩, ⟨S512x2048, shapeCast S512x2048 xs hd⟩] hc) hs (ix2 r d)
      = rows cr xs (r.val + i) d := by
  subst hoff
  have hr : r.val < 512 := r.isLt
  refine (extractStridedSlice_apply _ _ hs (ix2 r d) (ix2 (⟨r.val + i, by omega⟩ : Fin 515) d) (fun a => match a with
    | ⟨0, _⟩ => by show r.val + i = i + r.val; omega
    | ⟨1, _⟩ => by show d.val = 0 + d.val; omega)).trans ?_
  unfold rows
  by_cases h : r.val + i < 3
  · rw [dif_pos h]
    exact concatenate_pair_apply_left (t := S515x2048) (s₁ := S3x2048) (s₂ := S512x2048) (0 : Fin 2) cr _ hc _ rfl (ix2 (⟨r.val + i, h⟩ : Fin 3) d) (fun b => match b with
      | ⟨0, _⟩ => rfl
      | ⟨1, _⟩ => rfl)
  · rw [dif_neg h, dif_pos (show r.val + i < 515 by omega)]
    refine (concatenate_pair_apply_right (t := S515x2048) (s₁ := S3x2048) (s₂ := S512x2048) (0 : Fin 2) cr _ hc _ rfl rfl (ix2 (⟨r.val + i - 3, by omega⟩ : Fin 512) d) (fun b hb => match b, hb with
      | ⟨0, _⟩, hb => absurd rfl hb
      | ⟨1, _⟩, _ => rfl) (by show r.val + i - 3 + 3 = r.val + i; omega)).trans ?_
    exact dropUnit_apply xs hd _ d

/-- THE TILE'S VALUE: entry `(r, d)` of what the body stores is the bias plus the four taps' products, rows
    `r … r+3` of the 515 against weights `0 … 3`, added first to last. -/
theorem tile_apply (xs : Vec Ideal S1x512x2048 .f32) (cr : Vec Ideal S3x2048 .f32) (kv : Vec Ideal S4x2048 .f32)
    (bv : Vec Ideal S1x2048 .f32) (r : Fin 512) (d : Fin 2048) :
    k0_pay4 (F := Ideal) xs cr kv bv (ix3 (0 : Fin 1) r d)
      = (((bv (ix2 (0 : Fin 1) d) + rows cr xs (r.val + 0) d * kv (ix2 (0 : Fin 4) d))
          + rows cr xs (r.val + 1) d * kv (ix2 (1 : Fin 4) d))
          + rows cr xs (r.val + 2) d * kv (ix2 (2 : Fin 4) d))
          + rows cr xs (r.val + 3) d * kv (ix2 (3 : Fin 4) d) := by
  unfold k0_pay4 k0_pay3
  dsimp only
  refine (addUnit_apply _ _ r d).trans ?_
  simp only [addf_apply, mulf_apply]
  rw [bias_apply bv _ _ r d,
    weight_apply kv ![0, 0] (0 : Fin 4) rfl _ _ _ _ r d, weight_apply kv ![1, 0] (1 : Fin 4) rfl _ _ _ _ r d,
    weight_apply kv ![2, 0] (2 : Fin 4) rfl _ _ _ _ r d, weight_apply kv ![3, 0] (3 : Fin 4) rfl _ _ _ _ r d,
    window_apply cr xs ![0, 0] 0 (by omega) rfl _ _ _ r d, window_apply cr xs ![1, 0] 1 (by omega) rfl _ _ _ r d,
    window_apply cr xs ![2, 0] 2 (by omega) rfl _ _ _ r d, window_apply cr xs ![3, 0] 3 (by omega) rfl _ _ _ r d]

/-- WHAT IS CARRIED ON: row `j` of the three rows the body leaves for the next tile is row `509 + j` of this one. -/
theorem carry_apply (xs : Vec Ideal S1x512x2048 .f32) (j : Fin 3) (d : Fin 2048) :
    k0_pay1 (F := Ideal) (k0_pay3 xs) (ix2 j d)
      = xs (ix3 (0 : Fin 1) (⟨509 + j.val, by have := j.isLt; omega⟩ : Fin 512) d) := by
  unfold k0_pay1 k0_pay3
  rw [shapeCast_self]
  refine (extractStridedSlice_apply _ _ _ (ix2 j d) (ix2 (⟨509 + j.val, by have := j.isLt; omega⟩ : Fin 512) d) (fun a => match a with
    | ⟨0, _⟩ => by show 509 + j.val = 509 + j.val; rfl
    | ⟨1, _⟩ => by show d.val = 0 + d.val; omega)).trans ?_
  exact dropUnit_apply xs _ _ d

/-- At a sequence's first tile the carried rows are reset to zero. -/
theorem reset_apply (j : Fin 3) (d : Fin 2048) : k0_pay2 (F := Ideal) (ix2 j d) = 0 := by
  unfold k0_pay2
  rw [shapeCast_self]
  show Ideal.ofBits .f32 0x00000000#32 = 0
  exact Ideal.ofBits_zero_f32

end Cert.KernelIdeal.Tile

end
-- ==== Proof.Pieces.lean ====
/-
  What one run of the body leaves behind, as values of what it loaded — for any reading of the floats.

  The body runs in one of two ways. At a sequence's first tile it first stores zeros into the three carried rows; at
  every other tile it finds there the rows the tile before left. Either way it then stores one thing into the output
  tile — the tile's value, computed from the input tile, the carried rows as they then stand, the weights and the
  bias — and one thing into the carried rows: the last three rows of the input tile.
-/
import proofs.«134902_j50818053046278_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later tile of a sequence: the output tile is the tile's value over the rows `cr` the tile before carried on. -/
theorem tile_later (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x2048 .f32) (h4 : a4.IsWhole)
    (a5 : Memref sig .tc .vmem S1x512x2048 .f32) (h5 : a5.IsWhole) (a6 : Memref sig .tc .vmem S3x2048 .f32) (h6 : a6.IsWhole)
    (hc : ¬cond0_0 i) (x0 : Vec F S1x512x2048 .f32) (x1 : Vec F S4x2048 .f32) (x2 : Vec F S1x2048 .f32) (cr : Vec F S3x2048 .f32) :
    out0_B_3 c i a2 h2 a3 h3 a4 h4 a5 h5 a6 h6 hc x0 x1 x2 cr = k0_pay4 x0 cr x1 x2 := by
  unfold out0_B_3
  rw [View.read_writes_eq_canon _ _ _ (cover0_B_3 c i a2 h2 a3 h3 a4 h4 a5 h5 a6 h6 hc x0 x1 x2 cr)]
  unfold kernelRun0_B
  dsimp only
  sl_unfold_words
  rw [View.canon_unit_zero hz3]
  simp only [View.readAt_eq_ld, h2.read_unread, h3.read_unread, h4.read_unread, h6.read_unread,
    View.ld_unit_zero (S := S1x512x2048) hz3, View.ld_unit_zero (S := S4x2048) hz2, View.ld_unit_zero (S := S1x2048) hz2,
    View.ld_unit_zero (S := S3x2048) hz2]

/-- A sequence's first tile: the carried rows are zeroed first, and the output tile is the tile's value over those zeros. -/
theorem tile_first (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x2048 .f32) (h4 : a4.IsWhole)
    (a5 : Memref sig .tc .vmem S1x512x2048 .f32) (h5 : a5.IsWhole) (a6 : Memref sig .tc .vmem S3x2048 .f32) (h6 : a6.IsWhole)
    (hc : cond0_0 i) (x0 : Vec F S1x512x2048 .f32) (x1 : Vec F S4x2048 .f32) (x2 : Vec F S1x2048 .f32) :
    out0_A_3 c i a2 h2 a3 h3 a4 h4 a5 h5 a6 h6 hc x0 x1 x2 = k0_pay4 x0 k0_pay2 x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3]
  simp only [View.readAt_eq_ld, h2.read_unread, h3.read_unread, h4.read_unread, h6.read_unread,
    View.readCov_unit_zero (S := S3x2048) _ hz2,
    View.ld_unit_zero (S := S1x512x2048) hz3, View.ld_unit_zero (S := S4x2048) hz2, View.ld_unit_zero (S := S1x2048) hz2,
    View.ld_unit_zero (S := S3x2048) hz2]

/-- A sequence's first tile carries on its last three rows (the zeros stored before are overwritten whole). -/
theorem carry_first (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x2048 .f32) (h4 : a4.IsWhole)
    (a5 : Memref sig .tc .vmem S1x512x2048 .f32) (h5 : a5.IsWhole) (a6 : Memref sig .tc .vmem S3x2048 .f32) (h6 : a6.IsWhole)
    (hc : cond0_0 i) (x0 : Vec F S1x512x2048 .f32) (x1 : Vec F S4x2048 .f32) (x2 : Vec F S1x2048 .f32) :
    sout0_A_0 c i a2 h2 a3 h3 a4 h4 a5 h5 a6 h6 hc x0 x1 x2 = k0_pay1 (k0_pay3 x0) := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_cons_unit_zero (S := S3x2048) hz2]
  simp only [View.readAt_eq_ld, h2.read_unread, View.ld_unit_zero (S := S1x512x2048) hz3]

/-- A later tile carries on its last three rows too, whatever it found carried. -/
theorem carry_later (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x2048 .f32) (h4 : a4.IsWhole)
    (a5 : Memref sig .tc .vmem S1x512x2048 .f32) (h5 : a5.IsWhole) (a6 : Memref sig .tc .vmem S3x2048 .f32) (h6 : a6.IsWhole)
    (hc : ¬cond0_0 i) (x0 : Vec F S1x512x2048 .f32) (x1 : Vec F S4x2048 .f32) (x2 : Vec F S1x2048 .f32) (cr : Vec F S3x2048 .f32) :
    sout0_B_0 c i a2 h2 a3 h3 a4 h4 a5 h5 a6 h6 hc x0 x1 x2 cr = k0_pay1 (k0_pay3 x0) := by
  unfold sout0_B_0
  rw [View.read_writes_eq_canon _ _ _ (scover0_B_0 c i a2 h2 a3 h3 a4 h4 a5 h5 a6 h6 hc x0 x1 x2 cr)]
  unfold kernelRun0_B
  dsimp only
  sl_unfold_words
  rw [View.canon_unit_zero hz2]
  simp only [View.readAt_eq_ld, h2.read_unread, View.ld_unit_zero (S := S1x512x2048) hz3]

end Cert.KernelIdeal.Pieces

end
-- ==== Proof.KernelValue.lean ====
/-
  The kernel computes the convolution of ConvSpec: its result array, read one entry at a time.

  The grid has 64 points; point `t` works on tile `t mod 8` (512 times) of batch row `t / 8`. The three rows the
  kernel carries between points are, after any point, the last three rows of that point's tile of `x`; so what a
  point finds carried is zeros at a sequence's first tile and rows 509 … 511 of the tile before otherwise — in both
  cases rows `s − 3 … s − 1` of the zero-padded series, `s` the tile's first time. The 515 rows the body works on are
  therefore rows `s … s + 514` of the padded series, and what the point writes back is the convolution on its tile.
  The 64 tiles fill the result array.
-/
import proofs.«134902_j50818053046278_1_alg».proof.Proof.Gen.KernelIdeal.Value
import proofs.«134902_j50818053046278_1_alg».proof.Proof.ConvSpec
import proofs.«134902_j50818053046278_1_alg».proof.Proof.TileValue
import proofs.«134902_j50818053046278_1_alg».proof.Proof.Pieces
import Idealize.ShloMosaic.Lib.Pipeline.Value
import Idealize.ShloMosaic.Lib.StableHlo.Run
import Idealize.ShloMosaic.Lib.ValueIdx

noncomputable section

namespace Cert.KernelIdeal.ConvValue

open Cert.KernelIdeal Cert.KernelIdeal.Gen Idealize.ShloMosaic Idealize.ShloMosaic.TcCoe Idealize.SL.Sem
open Idealize.ShloMosaic.Pipeline (Dat)
open Idealize.ShloMosaic.ValueIdx Cert.CausalConv Cert.KernelIdeal.Tile Cert.KernelIdeal.Pieces

variable (m : (ℓ : Loc nD τ sig) → Buf (Elt Ideal) ℓ) (ρ : Dev nD → PrngReg)

/-! ## The arrays and the blocks, at their literal types -/

/-- The three argument arrays as launched. -/
abbrev xin (c : Dev nD) : Vec Ideal S8x4096x2048 .f32 := m ((c : Thread nD τ).loc main_arg0)
abbrev win (c : Dev nD) : Vec Ideal S4x2048 .f32 := m ((c : Thread nD τ).loc main_arg1)
abbrev bin (c : Dev nD) : Vec Ideal S2048 .f32 := m ((c : Thread nD τ).loc main_arg2)

/-- The input blocks of point `t`: a tile of `x`, the four weight rows, the bias row. -/
abbrev xblk (c : Dev nD) (t : Fin cfg0.N) : Vec Ideal S1x512x2048 .f32 := iblk m c 0 t
abbrev wblk (c : Dev nD) (t : Fin cfg0.N) : Vec Ideal S4x2048 .f32 := iblk m c 1 t
abbrev bblk (c : Dev nD) (t : Fin cfg0.N) : Vec Ideal S1x2048 .f32 := iblk m c 2 t

theorem hN : cfg0.N = 64 := N_0

/-- Where the blocks lie: point `t`'s tile of `x` and of the result is block `(t / 8, t mod 8, 0)`; the weights and the
    bias row are one block each. Decided over the 64 points. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 8 ∧ win0_3.index t (1 : Fin 3) = t.val % 8 ∧ win0_3.index t (2 : Fin 3) = 0 :=
  (by decide +kernel : ∀ t : Fin grid0.N, _)

/-- Batch row and first time of point `t`'s tile, as indices. -/
abbrev brow (t : Fin cfg0.N) : Fin 8 := ⟨t.val / 8, by have := lt_of_lt_of_eq t.isLt hN; omega⟩
abbrev tstart (t : Fin cfg0.N) : ℕ := t.val % 8 * 512

/-- Row `r` of point `t`'s tile of `x` is time `tstart t + r` of batch row `t / 8`. -/
theorem xblk_apply (c : Dev nD) (t : Fin cfg0.N) (r : Fin 512) (d : Fin 2048) :
    xblk m c t (ix3 (0 : Fin 1) r d)
      = xin m c (ix3 (brow t) (⟨tstart t + r.val, by have := r.isLt; show t.val % 8 * 512 + r.val < 4096; omega⟩ : Fin 4096) d) := by
  obtain ⟨e0, e1, e2, -⟩ := idx_facts t
  show V m c main_arg0 (((cfg0.win 0).blk t).view.emb (ix3 (0 : Fin 1) r d)) = _
  rw [V_main_arg0]
  refine congrArg (xin m c) (funext fun a => Fin.ext ?_)
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 2048 + 1 * d.val = d.val; omega

/-- The weight block is the weight array. -/
theorem wblk_apply (c : Dev nD) (t : Fin cfg0.N) (i : Fin 4) (d : Fin 2048) :
    wblk m c t (ix2 i d) = win m c (ix2 i d) := by
  obtain ⟨-, -, -, e0, e1, -⟩ := idx_facts t
  show V m c main_arg1 (((cfg0.win 1).blk t).view.emb (ix2 i d)) = _
  rw [V_main_arg1]
  refine congrArg (win m c) (funext fun a => Fin.ext ?_)
  match a with
  | ⟨0, _⟩ => show win0_1.index t (0 : Fin 2) * 4 + 1 * i.val = i.val; omega
  | ⟨1, _⟩ => show win0_1.index t (1 : Fin 2) * 2048 + 1 * d.val = d.val; omega

/-- What the region finds in the bias row's array: the bias given a leading unit axis by the host. -/
theorem V_bias (c : Dev nD) :
    (V m c main_v0 : S1x2048.Idx → Elt Ideal .f32) = shapeCast S1x2048 (bin m c) Facts₀.shapeCasts_S2048_S1x2048 := by
  dsimp only [Gen.V, Gen.hostOps0]; after_results; rfl

/-- The bias block is the bias. -/
theorem bblk_apply (c : Dev nD) (t : Fin cfg0.N) (d : Fin 2048) :
    bblk m c t (ix2 (0 : Fin 1) d) = bin m c (ix1 d) := by
  obtain ⟨-, -, -, -, -, e0, e1, -⟩ := idx_facts t
  show V m c main_v0 (((cfg0.win 2).blk t).view.emb (ix2 (0 : Fin 1) d)) = _
  rw [V_bias]
  refine shapeCast_apply (bin m c) _ _ (ix1 d) ?_
  rw [Shape.rowMajor_val_one, Shape.rowMajor_val_two]
  show d.val = (win0_2.index t (0 : Fin 2) * 1 + 1 * 0) * 2048 + (win0_2.index t (1 : Fin 2) * 2048 + 1 * d.val)
  omega

/-! ## What the kernel carries, and what a point finds carried -/

/-- After any point the carried rows are the last three rows of that point's tile of `x`. -/
theorem carried_eq (c : Dev nD) (n : ℕ) (h : n < cfg0.N) :
    (outsAt0 m c n h).2 = k0_pay1 (k0_pay3 (xblk m c ⟨n, h⟩)) := by
  by_cases h0 : n % 8 = 0
  · rw [outsAt0_A m c ⟨n, h⟩ h0]
    dsimp only
    exact carry_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (iblk m c 0 ⟨n, h⟩) (iblk m c 1 ⟨n, h⟩) (iblk m c 2 ⟨n, h⟩)
  · rw [outsAt0_B m c ⟨n, h⟩ h0]
    dsimp only
    exact carry_later (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (iblk m c 0 ⟨n, h⟩) (iblk m c 1 ⟨n, h⟩) (iblk m c 2 ⟨n, h⟩) _

/-- The rows point `t` finds carried: zeros at a sequence's first tile, else the last three rows of the tile before. -/
def found (c : Dev nD) (t : Fin cfg0.N) : Vec Ideal S3x2048 .f32 :=
  if t.val % 8 = 0 then k0_pay2 (F := Ideal)
  else k0_pay1 (k0_pay3 (xblk m c ⟨t.val - 1, Nat.lt_of_le_of_lt (Nat.sub_le _ _) t.isLt⟩))

/-- What point `t` leaves in the output tile: the tile's value over its blocks and the rows it found carried. -/
theorem tile_eq (c : Dev nD) (t : Fin cfg0.N) :
    (outsAt0 m c t.val t.isLt).1 = k0_pay4 (xblk m c t) (found m c t) (wblk m c t) (bblk m c t) := by
  unfold found
  by_cases h0 : t.val % 8 = 0
  · rw [outsAt0_A m c t h0, if_pos h0]
    dsimp only
    exact tile_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t)
  · rw [outsAt0_B m c t h0, if_neg h0]
    dsimp only
    rw [carried_eq m c (t.val - 1) (Nat.lt_of_le_of_lt (Nat.sub_le _ _) t.isLt)]
    exact tile_later (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) (iblk m c 0 t) (iblk m c 1 t) (iblk m c 2 t) _

/-- THE 515 ROWS ARE THE PADDED SERIES: row `j` of what the body works on at point `t` is the zero-padded series of
    `x[t / 8]` at `tstart t + j`. -/
theorem rows_eq (c : Dev nD) (t : Fin cfg0.N) (j : ℕ) (hj : j < 515) (d : Fin 2048) :
    rows (found m c t) (xblk m c t) j d = padded (xin m c) (brow t) (tstart t + j) d := by
  have hN' : t.val < 64 := lt_of_lt_of_eq t.isLt hN
  unfold rows
  by_cases h3 : j < 3
  · rw [dif_pos h3]
    unfold found
    by_cases h0 : t.val % 8 = 0
    · rw [if_pos h0, reset_apply, padded_of_lt _ _ _ _ (by show t.val % 8 * 512 + j < 3; omega)]
    · rw [if_neg h0, carry_apply, xblk_apply]
      refine Eq.trans (congrArg (xin m c) (funext fun a => Fin.ext ?_))
        (padded_of_le (xin m c) (brow t) (tstart t + j) d
          (⟨tstart t + j - 3, by show t.val % 8 * 512 + j - 3 < 4096; omega⟩ : Fin 4096)
          (by show t.val % 8 * 512 + j = t.val % 8 * 512 + j - 3 + 3; omega)).symm
      match a with
      | ⟨0, _⟩ => show (t.val - 1) / 8 = t.val / 8; omega
      | ⟨1, _⟩ => show (t.val - 1) % 8 * 512 + (509 + j) = t.val % 8 * 512 + j - 3; omega
      | ⟨2, _⟩ => rfl
  · rw [dif_neg h3, dif_pos hj, xblk_apply]
    refine (padded_of_le (xin m c) (brow t) (tstart t + j) d _ ?_).symm
    show t.val % 8 * 512 + j = t.val % 8 * 512 + (j - 3) + 3; omega

/-- So entry `(r, d)` of what point `t` leaves in the output tile is the convolution at `(t / 8, tstart t + r, d)`. -/
theorem tile_conv (c : Dev nD) (t : Fin cfg0.N) (r : Fin 512) (d : Fin 2048) :
    (outsAt0 m c t.val t.isLt).1 (ix3 (0 : Fin 1) r d)
      = conv (xin m c) (win m c) (bin m c)
          (ix3 (brow t) (⟨tstart t + r.val, by have := r.isLt; show t.val % 8 * 512 + r.val < 4096; omega⟩ : Fin 4096) d) := by
  have hr := r.isLt
  rw [tile_eq m c t]
  refine (tile_apply (xblk m c t) (found m c t) (wblk m c t) (bblk m c t) r d).trans ?_
  rw [rows_eq m c t _ (by omega) d, rows_eq m c t _ (by omega) d, rows_eq m c t _ (by omega) d, rows_eq m c t _ (by omega) d,
    wblk_apply, wblk_apply, wblk_apply, wblk_apply, bblk_apply]
  rfl

/-! ## From the tiles to the array -/

/-- WHAT POINT `t` WRITES BACK is its block of the convolution. -/
theorem flushed_eq (c : Dev nD) (t : Fin cfg0.N) :
    (dats m 0 c).flushed 3 t = ((cfg0.win 3).blk t).view.read (Elt Ideal) (conv (xin m c) (win m c) (bin m c)) := by
  obtain ⟨-, -, -, -, -, -, -, e0, e1, e2⟩ := idx_facts t
  rw [Value.flushed3]
  refine funext fun (j : S1x512x2048.Idx) => ?_
  have hj0 : @Eq (Fin 1) (j 0) (0 : Fin 1) := Fin.ext (by have h : (j 0).val < 1 := (j 0).isLt; show (j 0).val = 0; omega)
  have hj : j = ix3 (0 : Fin 1) (j 1) (j 2) := (eq_ix3 j).trans (congrArg (fun z => ix3 z (j 1) (j 2)) hj0)
  show (outsAt0 m c t.val t.isLt).1 j = conv (xin m c) (win m c) (bin m c) (((cfg0.win 3).blk t).view.emb j)
  rw [hj]
  refine (tile_conv m c t (j 1) (j 2)).trans (congrArg (conv (xin m c) (win m c) (bin m c)) (funext fun a => Fin.ext ?_))
  match a with
  | ⟨0, _⟩ => show t.val / 8 = win0_3.index t (0 : Fin 3) * 1 + 1 * 0; omega
  | ⟨1, _⟩ => show t.val % 8 * 512 + (j 1).val = win0_3.index t (1 : Fin 3) * 512 + 1 * (j 1).val; omega
  | ⟨2, _⟩ => show (j 2).val = win0_3.index t (2 : Fin 3) * 2048 + 1 * (j 2).val; omega

/-- An index of the result array is in point `t`'s block iff each coordinate is in the block's range on its axis. -/
theorem mem_blk (t : Fin cfg0.N) (i : S8x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1).slice (win0_3.rect t)).set ↔ _
  rw [View.set_slice_whole, Rect.mem_set_unit]
  exact Iff.rfl

/-- The 64 tiles fill the result array: entry `(b, s, d)` lies in the block of point `8 b + s / 512`. -/
theorem cover (i : S8x4096x2048.Idx) :
    ∃ t : Fin cfg0.N, (cfg0.win 3).flush t = true ∧ i ∈ ((cfg0.win 3).blk t).view.set := by
  have h0 : (i 0).val < 8 := (i 0).isLt
  have h1 : (i 1).val < 4096 := (i 1).isLt
  have h2 : (i 2).val < 2048 := (i 2).isLt
  let t : Fin cfg0.N := ⟨(i 0).val * 8 + (i 1).val / 512, by rw [hN]; omega⟩
  have ht : t.val = (i 0).val * 8 + (i 1).val / 512 := rfl
  obtain ⟨-, -, -, -, -, -, -, e0, e1, e2⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- THE RESULT ARRAY after the run is the convolution of the arguments. -/
theorem final (c : Dev nD) : (dats m 0 c).arrAt 3 cfg0.N = conv (xin m c) (win m c) (bin m c) :=
  (dats m 0 c).arrAt_eq_of_cover 3 (conv (xin m c) (win m c) (bin m c)) (fun t _ => flushed_eq m c t) cover

/-- The kernel's run, read: every execution ends with the result array at the convolution of the argument arrays, the
    arguments unchanged. -/
theorem run : θ_run defs (onTc (τ := τ) (main (F := Ideal))) ⟨m, fun _ => 0, ρ⟩ fun r => ∀ c : Dev nD,
      r.2.mem ((c : Thread nD τ).loc main_v1) = conv (xin m c) (win m c) (bin m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ConvValue

end
-- ==== Proof.RefConv.lean ====
/-
  The reference computes the convolution of ConvSpec: its result read one entry at a time.

  The reference pads `x` with three zero rows in front of the time axis, and for each of the four taps takes the
  slice of the padded array that starts `i` rows in, multiplies it by weight row `i` spread over batch and time,
  and adds the product to the running sum that starts at the bias spread the same way. Entry `(b, s, d)` of the
  padded array is the padded series of ConvSpec at `s`; so entry `(b, t, d)` of the result is the bias plus the four
  products in order: the convolution.
-/
import proofs.«134902_j50818053046278_1_alg».proof.Proof.Gen.ReferenceIdeal.Read
import proofs.«134902_j50818053046278_1_alg».proof.Proof.ConvSpec
import Idealize.ShloMosaic.Lib.KernelVsHost
import Idealize.ShloMosaic.Lib.ValueIdx
import Idealize.ShloMosaic.PureOps.Ideal.Laws

noncomputable section

namespace Cert.ReferenceIdeal.RefConv

open Cert.ReferenceIdeal Cert.ReferenceIdeal.Gen Cert.ReferenceIdeal.Read Idealize.ShloMosaic Idealize.ShloMosaic.ValueIdx
open Cert.CausalConv

/-- The value the reference pads with — the integer zero converted — is zero. -/
theorem padval (i : S_.Idx) : val_main_call0_v0 (F := Ideal) i = 0 := by
  show ((((0#32 : BitVec 32).toInt : ℤ) : ℝ) : EReal) = 0
  simp

/-- THE PADDED ARRAY: entry `(b, s, d)` is the padded series at `s` — zero in the three rows put in front, then `x`. -/
theorem padded_read (x : SX.Idx → EReal) (b : Fin 8) (s : Fin 4099) (d : Fin 2048) :
    val_main_v0 (F := Ideal) x (ix3 b s d) = padded x b s.val d := by
  unfold val_main_v0
  by_cases h : 3 ≤ s.val
  · have hs := s.isLt
    rw [padded_of_le x b s.val d ⟨s.val - 3, by omega⟩ (by show s.val = s.val - 3 + 3; omega)]
    exact pad_apply_of_inside _ _ _ x _ _ _ (ix3 b s d) (ix3 b (⟨s.val - 3, by omega⟩ : Fin 4096) d) (fun a => match a with
      | ⟨0, _⟩ => by show b.val = 0 + b.val * (0 + 1); omega
      | ⟨1, _⟩ => by show s.val = 3 + (s.val - 3) * (0 + 1); omega
      | ⟨2, _⟩ => by show d.val = 0 + d.val * (0 + 1); omega)
  · rw [padded_of_lt x b s.val d (by omega)]
    refine (pad_apply_of_not_inside _ _ _ x _ _ _ (ix3 b s d) (1 : Fin 3) (fun hin => h ?_)).trans (padval _)
    exact hin.1

/-- Tap 0's weight, cut out of the four rows and spread over batch and time, reads `w[0, d]`. -/
theorem weight0_apply (w : SW.Idx → EReal) (b : Fin 8) (t : Fin 4096) (d : Fin 2048) :
    val_main_v5 (F := Ideal) w (ix3 b t d) = w (ix2 (0 : Fin 4) d) := by
  rw [val_main_v5_apply, val_main_v4_apply, val_main_v3_apply, val_main_v2_apply]
  refine congrArg w (funext fun a => Fin.ext ?_)
  match a with
  | ⟨0, _⟩ => rfl
  | ⟨1, _⟩ => exact Nat.mod_eq_of_lt d.isLt

/-- The slice of the padded array that starts 0 rows in reads the padded series at `t + 0`. -/
theorem shifted0_apply (x : SX.Idx → EReal) (b : Fin 8) (t : Fin 4096) (d : Fin 2048) :
    val_main_v1 (F := Ideal) x (ix3 b t d) = padded x b (t.val + 0) d := by
  rw [val_main_v1_apply]
  refine (congrArg (val_main_v0 (F := Ideal) x) (?_ : _ = ix3 b (⟨t.val + 0, by have := t.isLt; omega⟩ : Fin 4099) d)).trans (padded_read x b _ d)
  funext a
  apply Fin.ext
  match a with
  | ⟨0, _⟩ => rfl
  | ⟨1, _⟩ => show t.val = t.val + 0; omega
  | ⟨2, _⟩ => rfl

/-- Tap 1's weight, cut out of the four rows and spread over batch and time, reads `w[1, d]`. -/
theorem weight1_apply (w : SW.Idx → EReal) (b : Fin 8) (t : Fin 4096) (d : Fin 2048) :
    val_main_v14 (F := Ideal) w (ix3 b t d) = w (ix2 (1 : Fin 4) d) := by
  rw [val_main_v14_apply, val_main_v13_apply, val_main_v12_apply, val_main_v11_apply]
  refine congrArg w (funext fun a => Fin.ext ?_)
  match a with
  | ⟨0, _⟩ => rfl
  | ⟨1, _⟩ => exact Nat.mod_eq_of_lt d.isLt

/-- The slice of the padded array that starts 1 rows in reads the padded series at `t + 1`. -/
theorem shifted1_apply (x : SX.Idx → EReal) (b : Fin 8) (t : Fin 4096) (d : Fin 2048) :
    val_main_v10 (F := Ideal) x (ix3 b t d) = padded x b (t.val + 1) d := by
  rw [val_main_v10_apply]
  refine (congrArg (val_main_v0 (F := Ideal) x) (?_ : _ = ix3 b (⟨t.val + 1, by have := t.isLt; omega⟩ : Fin 4099) d)).trans (padded_read x b _ d)
  funext a
  apply Fin.ext
  match a with
  | ⟨0, _⟩ => rfl
  | ⟨1, _⟩ => show 1 + t.val = t.val + 1; omega
  | ⟨2, _⟩ => rfl

/-- Tap 2's weight, cut out of the four rows and spread over batch and time, reads `w[2, d]`. -/
theorem weight2_apply (w : SW.Idx → EReal) (b : Fin 8) (t : Fin 4096) (d : Fin 2048) :
    val_main_v21 (F := Ideal) w (ix3 b t d) = w (ix2 (2 : Fin 4) d) := by
  rw [val_main_v21_apply, val_main_v20_apply, val_main_v19_apply, val_main_v18_apply]
  refine congrArg w (funext fun a => Fin.ext ?_)
  match a with
  | ⟨0, _⟩ => rfl
  | ⟨1, _⟩ => exact Nat.mod_eq_of_lt d.isLt

/-- The slice of the padded array that starts 2 rows in reads the padded series at `t + 2`. -/
theorem shifted2_apply (x : SX.Idx → EReal) (b : Fin 8) (t : Fin 4096) (d : Fin 2048) :
    val_main_v17 (F := Ideal) x (ix3 b t d) = padded x b (t.val + 2) d := by
  rw [val_main_v17_apply]
  refine (congrArg (val_main_v0 (F := Ideal) x) (?_ : _ = ix3 b (⟨t.val + 2, by have := t.isLt; omega⟩ : Fin 4099) d)).trans (padded_read x b _ d)
  funext a
  apply Fin.ext
  match a with
  | ⟨0, _⟩ => rfl
  | ⟨1, _⟩ => show 2 + t.val = t.val + 2; omega
  | ⟨2, _⟩ => rfl

/-- Tap 3's weight, cut out of the four rows and spread over batch and time, reads `w[3, d]`. -/
theorem weight3_apply (w : SW.Idx → EReal) (b : Fin 8) (t : Fin 4096) (d : Fin 2048) :
    val_main_v28 (F := Ideal) w (ix3 b t d) = w (ix2 (3 : Fin 4) d) := by
  rw [val_main_v28_apply, val_main_v27_apply, val_main_v26_apply, val_main_v25_apply]
  refine congrArg w (funext fun a => Fin.ext ?_)
  match a with
  | ⟨0, _⟩ => rfl
  | ⟨1, _⟩ => exact Nat.mod_eq_of_lt d.isLt

/-- The slice of the padded array that starts 3 rows in reads the padded series at `t + 3`. -/
theorem shifted3_apply (x : SX.Idx → EReal) (b : Fin 8) (t : Fin 4096) (d : Fin 2048) :
    val_main_v24 (F := Ideal) x (ix3 b t d) = padded x b (t.val + 3) d := by
  rw [val_main_v24_apply]
  refine (congrArg (val_main_v0 (F := Ideal) x) (?_ : _ = ix3 b (⟨t.val + 3, by have := t.isLt; omega⟩ : Fin 4099) d)).trans (padded_read x b _ d)
  funext a
  apply Fin.ext
  match a with
  | ⟨0, _⟩ => rfl
  | ⟨1, _⟩ => show 3 + t.val = t.val + 3; omega
  | ⟨2, _⟩ => rfl

/-- The bias spread over batch and time reads `bias[d]`. -/
theorem bias_apply (bias : SB.Idx → EReal) (b : Fin 8) (t : Fin 4096) (d : Fin 2048) :
    val_main_v8 (F := Ideal) bias (ix3 b t d) = bias (ix1 d) := by
  rw [val_main_v8_apply, val_main_v7_apply]
  refine congrArg bias (funext fun a => Fin.ext ?_)
  match a with
  | ⟨0, _⟩ => rfl

/-- THE REFERENCE'S RESULT is the convolution: the bias, then the four taps' products, added first to last. -/
theorem result_eq (x : SX.Idx → EReal) (w : SW.Idx → EReal) (bias : SB.Idx → EReal) :
    val_main_v30 (F := Ideal) x w bias = conv x w bias := by
  funext j
  obtain ⟨b, t, d, rfl⟩ : ∃ (b : Fin 8) (t : Fin 4096) (d : Fin 2048), j = ix3 b t d := ⟨j 0, j 1, j 2, eq_ix3 j⟩
  rw [val_main_v30_apply, val_main_v29_apply, val_main_v23_apply, val_main_v22_apply, val_main_v16_apply,
    val_main_v15_apply, val_main_v9_apply, val_main_v6_apply,
    bias_apply, shifted0_apply, shifted1_apply, shifted2_apply, shifted3_apply,
    weight0_apply, weight1_apply, weight2_apply, weight3_apply]
  rfl

end Cert.ReferenceIdeal.RefConv

end
-- ==== Proof.lean ====
/-
  A depthwise causal convolution with four taps, tiled along time with the three rows before each tile carried from
  tile to tile, against the same convolution written as four shifted slices of the zero-padded input.

  For batch row `b`, time `t` and channel `d` both programs compute

      y[b, t, d] = (((bias[d] + p[b, t, d] · w[0, d]) + p[b, t+1, d] · w[1, d]) + p[b, t+2, d] · w[2, d]) + p[b, t+3, d] · w[3, d]

  with `p[b, ·, d]` the series `x[b, ·, d]` after three zeros (ConvSpec). The reference builds `p` by padding and reads
  it through four slices (RefConv). The kernel never builds `p`: at grid point `t` it has tile `t mod 8` of batch row
  `t / 8` and, in a scratch buffer, the last three rows of the tile before — zeros at a sequence's first tile — and
  those 515 rows are a stretch of `p` (KernelValue, over TileValue and Pieces). The terms are added in the same order
  on both sides and the zeros are the same zero, so the two results are one expression of the same entries: no law of
  the extended reals is used, and the inputs' finiteness is not needed.

  The three frames are the generated ones (the reference's is its generated run with the result dropped); no
  operation of the kernel was rewritten for the reading over the extended reals, so `preserves` is `True`.
-/
import proofs.«134902_j50818053046278_1_alg».proof.Defs
import proofs.«134902_j50818053046278_1_alg».proof.Proof.Gen.Kernel
import proofs.«134902_j50818053046278_1_alg».proof.Proof.Gen.Kernel.Skeleton
import proofs.«134902_j50818053046278_1_alg».proof.Proof.Gen.Kernel.Launch
import proofs.«134902_j50818053046278_1_alg».proof.Proof.Gen.Kernel.Points
import proofs.«134902_j50818053046278_1_alg».proof.Proof.Gen.Kernel.Frame
import proofs.«134902_j50818053046278_1_alg».proof.Proof.Gen.KernelIdeal
import proofs.«134902_j50818053046278_1_alg».proof.Proof.Gen.KernelIdeal.Skeleton
import proofs.«134902_j50818053046278_1_alg».proof.Proof.Gen.KernelIdeal.Launch
import proofs.«134902_j50818053046278_1_alg».proof.Proof.Gen.KernelIdeal.Points
import proofs.«134902_j50818053046278_1_alg».proof.Proof.Gen.KernelIdeal.Frame
import proofs.«134902_j50818053046278_1_alg».proof.Proof.Gen.ReferenceIdeal
import proofs.«134902_j50818053046278_1_alg».proof.Proof.Gen.Pre_finite_inputs
import proofs.«134902_j50818053046278_1_alg».proof.Proof.Gen.KernelIdeal.Value
import proofs.«134902_j50818053046278_1_alg».proof.Proof.Gen.ReferenceIdeal.Run
import proofs.«134902_j50818053046278_1_alg».proof.Proof.Gen.ReferenceIdeal.Read
import proofs.«134902_j50818053046278_1_alg».proof.Proof.ConvSpec
import proofs.«134902_j50818053046278_1_alg».proof.Proof.KernelValue
import proofs.«134902_j50818053046278_1_alg».proof.Proof.RefConv
import Idealize.ShloMosaic.Adequacy
import Idealize.ShloMosaic.Init

noncomputable section

namespace Cert.Proof

open Idealize.ShloMosaic Idealize.ShloMosaic.TcCoe Idealize.SL.Sem

/-- The kernel at the word level runs to the end and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs to the end and leaves its arguments alone: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- Over the extended reals, from arguments that agree, the kernel's result array ends at the convolution of its
    arguments (KernelValue) and the reference's at the convolution of its own (RefConv): the same array. -/
theorem algebraic : Cert.algebraic_KernelIdeal_ReferenceIdeal := by
  intro m ρ m' ρ' _ hagree
  refine ⟨fun c => Cert.CausalConv.conv (Cert.KernelIdeal.ConvValue.xin m c) (Cert.KernelIdeal.ConvValue.win m c)
    (Cert.KernelIdeal.ConvValue.bin m c), Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v30_eq _ _ _).trans ((Cert.ReferenceIdeal.RefConv.result_eq _ _ _).trans ?_)
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
